-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S1x128 : Shape := ⟨2, ![1, 128]⟩
abbrev S100000x1 : Shape := ⟨2, ![100000, 1]⟩
abbrev S5000x1 : Shape := ⟨2, ![5000, 1]⟩

abbrev nBuf : Space → Nat
  | .hbm => 108
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000, .f32⟩
  | .hbm, ⟨61, _⟩ => ⟨S1x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x1, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S100000, .f32⟩
  | .hbm, ⟨101, _⟩ => ⟨S1x128, .f32⟩
  | .hbm, ⟨102, _⟩ => ⟨S100000x1, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S1x128, .f32⟩
  | .hbm, ⟨107, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call2_cst : Ref sig .tc := ⟨.hbm, 126, rfl⟩
abbrev main_call2_v0 : Ref sig .tc := ⟨.hbm, 127, rfl⟩
abbrev main_v95 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The graph-convolution network's layers as whole-array functions over the extended reals.

  Four arrays of shapes appear: node features [100000, 128], a weight matrix [128, 128], a per-node
  column [100000, 1] and a per-feature row [1, 128]. A layer multiplies the features by a weight matrix
  (`mm`), adds to the aggregated messages the self-loop term  d2[r] * xw[r, q]  and the bias  b[q]
  (`combine`), and may clamp below at zero (`relu`); an output head is a product plus a bias row,
  clamped (`head`). Both programs are read against these functions index by index.
-/
import Idealize.ShloMosaic.PureOps.Ideal
import Idealize.ShloMosaic.Lib.ValueIdx

noncomputable section

namespace GCN

open Idealize.ShloMosaic Idealize.ShloMosaic.ValueIdx

/-- Node features: one row of 128 numbers per node. -/
abbrev Feat : Shape := ⟨2, ![100000, 128]⟩
/-- A square weight matrix. -/
abbrev Wt : Shape := ⟨2, ![128, 128]⟩
/-- One number per node, laid out as a column. -/
abbrev Col : Shape := ⟨2, ![100000, 1]⟩
/-- One number per feature, laid out as a row. -/
abbrev Row : Shape := ⟨2, ![1, 128]⟩
/-- One number per node. -/
abbrev NodeVec : Shape := ⟨1, ![100000]⟩
/-- One number per feature. -/
abbrev FeatVec : Shape := ⟨1, ![128]⟩

/-- The row of an index of the feature array, as a number below 100000. -/
abbrev rowOf (i : Feat.Idx) : Fin 100000 := ⟨(i 0).val, (i 0).isLt⟩
/-- The column of an index of the feature array, as a number below 128. -/
abbrev colOf (i : Feat.Idx) : Fin 128 := ⟨(i 1).val, (i 1).isLt⟩

/-- Every index of the feature array is the pair of its row and its column. -/
theorem eq_ix2_rowOf_colOf (i : Feat.Idx) : i = ix2 (rowOf i) (colOf i) :=
  funext fun a => Fin.ext (by
    match a with
    | ⟨0, _⟩ => rfl
    | ⟨1, _⟩ => rfl)

/-- The matrix product  (x w)[r, q] = Σₖ x[r, k] * w[k, q]. -/
def mm (x : Feat.Idx → EReal) (w : Wt.Idx → EReal) : Feat.Idx → EReal :=
  fun i => ∑ k : Fin 128, x (ix2 (rowOf i) k) * w (ix2 k (colOf i))

/-- The end of a graph convolution: messages, plus the self-loop term, plus the bias:
    (agg[r, q] + d2[r] * xw[r, q]) + b[q]. -/
def combine (agg xw : Feat.Idx → EReal) (d2 : Col.Idx → EReal) (b : Row.Idx → EReal) : Feat.Idx → EReal :=
  fun i => (agg i + d2 (ix2 (rowOf i) (0 : Fin 1)) * xw i) + b (ix2 (0 : Fin 1) (colOf i))

/-- Clamping below at zero, entry by entry. -/
def relu (y : Feat.Idx → EReal) : Feat.Idx → EReal := fun i => max (y i) 0

/-- An output head:  max ((h w)[r, q] + b[q], 0). -/
def head (h : Feat.Idx → EReal) (w : Wt.Idx → EReal) (b : Row.Idx → EReal) : Feat.Idx → EReal :=
  fun i => max (mm h w i + b (ix2 (0 : Fin 1) (colOf i))) 0

/-- A per-node vector laid out as a column. -/
def col (v : NodeVec.Idx → EReal) : Col.Idx → EReal := fun i => v (ix1 ⟨(i 0).val, (i 0).isLt⟩)

/-- A per-feature vector laid out as a row. -/
def row (b : FeatVec.Idx → EReal) : Row.Idx → EReal := fun i => b (ix1 ⟨(i 1).val, (i 1).isLt⟩)

theorem mm_apply (x : Feat.Idx → EReal) (w : Wt.Idx → EReal) (r : Fin 100000) (q : Fin 128) :
    mm x w (ix2 r q) = ∑ k : Fin 128, x (ix2 r k) * w (ix2 k q) := rfl

theorem combine_apply (agg xw : Feat.Idx → EReal) (d2 : Col.Idx → EReal) (b : Row.Idx → EReal)
    (r : Fin 100000) (q : Fin 128) :
    combine agg xw d2 b (ix2 r q)
      = (agg (ix2 r q) + d2 (ix2 r (0 : Fin 1)) * xw (ix2 r q)) + b (ix2 (0 : Fin 1) q) := rfl

theorem relu_apply (y : Feat.Idx → EReal) (i : Feat.Idx) : relu y i = max (y i) 0 := rfl

theorem head_apply (h : Feat.Idx → EReal) (w : Wt.Idx → EReal) (b : Row.Idx → EReal)
    (r : Fin 100000) (q : Fin 128) :
    head h w b (ix2 r q) = max ((∑ k : Fin 128, h (ix2 r k) * w (ix2 k q)) + b (ix2 (0 : Fin 1) q)) 0 := rfl

theorem col_apply (v : NodeVec.Idx → EReal) (r : Fin 100000) (u : Fin 1) : col v (ix2 r u) = v (ix1 r) := rfl

theorem row_apply (b : FeatVec.Idx → EReal) (u : Fin 1) (q : Fin 128) : row b (ix2 u q) = b (ix1 q) := rfl

end GCN

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.Region0.lean ====
/-
  Region 0: the first matrix product, tile by tile.

  The region runs the matrix-product kernel at twenty grid points; point t stages rows 5000 t to 5000 t + 4999 of the
  node features and the whole weight matrix, multiplies, and writes the 5000 x 128 result back to the same rows of the
  output array. Entry (p, q) of a tile's product is the sum over k of feature (5000 t + p, k) times weight (k, q): the
  whole product's entry at row 5000 t + p. The tiles cover the array, so the array ends as the whole product.
-/
import proofs.«113579_j86242943303861_1_alg».proof.Proof.Gen.KernelIdeal.Frame
import proofs.«113579_j86242943303861_1_alg».proof.Proof.Spec
import proofs.«113579_j86242943303861_1_alg».proof.Proof.LibMatmul2
import proofs.«113579_j86242943303861_1_alg».proof.Proof.LibDotAxes
import Idealize.ShloMosaic.Lib.Pipeline.Value
import Idealize.ShloMosaic.PureOps.Ideal.Laws

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem hz0 : (![0, 0] : Fin 2 → Nat) = fun _ => 0 := funext fun a => by fin_cases a <;> rfl

/-- The tile's payload at (p, q): at the extended reals the change of float format is the identity, and the matrix
    product into the zero accumulator is the sum over k of x0[p, k] * x1[k, q]. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmul2.matmul_zero_apply dot_S5000x128_S128x128_S5000x128_1_0_0_1_n_n
    (Cert.LibDotAxes.contr_rank _ rfl) (Cert.LibDotAxes.contr_size _ rfl _)
    (Cert.LibDotAxes.lhs_row _ rfl rfl) (fun i k => Cert.LibDotAxes.lhs_col _ rfl i k _)
    (fun i k => Cert.LibDotAxes.rhs_row _ rfl i k _) (Cert.LibDotAxes.rhs_col _ rfl rfl rfl rfl)
    (truncf .bf16 x0 bitsLt_bf16_f32) (truncf .bf16 x1 bitsLt_bf16_f32) p q

/-- The printed index maps over the twenty grid points: the feature window and the output window sit at block (t, 0),
    the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row tile of the product: if x0 is rows [5000 n, 5000 n + 5000) of A and x1 is B, the tile's payload at (p, q) is the
    whole product at (5000 n + p, q): the same sum over k. -/
theorem tile0_eq (A : GCN.Feat.Idx → EReal) (B : GCN.Wt.Idx → EReal) (x0 : Vec Ideal S5000x128 .f32) (x1 : Vec Ideal S128x128 .f32)
    (n : Nat) (hn : n < 20)
    (h0 : ∀ (p : Fin 5000) (k : Fin 128), x0 (ix2 p k) = A (ix2 (⟨n * 5000 + p.val, by have := p.isLt; omega⟩ : Fin 100000) k))
    (h1 : ∀ (k q : Fin 128), x1 (ix2 k q) = B (ix2 k q)) (p : Fin 5000) (q : Fin 128) :
    k0_pay1 (F := Ideal) x0 x1 (ix2 p q) = GCN.mm A B (ix2 (⟨n * 5000 + p.val, by have := p.isLt; omega⟩ : Fin 100000) q) := by
  rw [pay0_apply, GCN.mm_apply]
  exact Finset.sum_congr rfl fun k _ => by rw [h0, h1]

/-- What grid point t writes back is block t (rows 5000 t to 5000 t + 4999) of the whole product of the arrays the
    region finds: a block's coordinate is its block index times the block size plus the coordinate inside. -/
theorem flushed0_eq (c : Dev nD) (t : Fin cfg0.N) :
    (dat0 (F := Ideal) V c).flushed 2 t = ((cfg0.win 2).blk t).view.read (Elt Ideal) (GCN.mm (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e00, e01, e10, e11, e20, e21⟩ := idx_facts0 t
  have ht : t.val < 20 := t.isLt
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
      = GCN.mm (V c main_arg0) (V c main_arg2) (((cfg0.win 2).blk t).view.emb (ix2 p q))
  have hemb : ((cfg0.win 2).blk t).view.emb (ix2 p q) = ix2 (⟨t.val * 5000 + p.val, by have := p.isLt; omega⟩ : Fin 100000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  rw [hemb]
  refine tile0_eq (V c main_arg0) (V c main_arg2) (iblk0 V c 0 t) (iblk0 V c 1 t) t.val ht ?_ ?_ p q
  · intro p k
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k q
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- An index of the output array lies in point t's block iff each coordinate lies in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- The twenty blocks cover the output array: row r lies in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk0]
  obtain ⟨-, -, -, -, e20, e21⟩ := idx_facts0 ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- After its twenty row tiles, region 0's output array is the product of the node features with the first weight
    matrix, as one function of the arrays the region finds. -/
theorem region0_array (c : Dev nD) :
    (dat0 (F := Ideal) V c).arrAt 2 cfg0.N = GCN.mm (V c main_arg0) (V c main_arg2) :=
  (dat0 (F := Ideal) V c).arrAt_eq_of_cover 2 _ (fun t _ => flushed0_eq V c t) cover0

end Cert.KernelIdeal.Tiles
end
-- ==== Proof.RefStages.lean ====
import proofs.«113579_j86242943303861_1_alg».proof.Proof.Gen.ReferenceIdeal.Read
import proofs.«113579_j86242943303861_1_alg».proof.Proof.Spec

noncomputable section

namespace Cert.ReferenceIdeal.Stages

open Cert.ReferenceIdeal Cert.ReferenceIdeal.Read Idealize.ShloMosaic Idealize.ShloMosaic.TcCoe

variable (x0 : (⟨S100000x128, .f32⟩ : BufTy).Contents (Elt Ideal)) (x1 : (⟨S2x1600000, .i32⟩ : BufTy).Contents (Elt Ideal))
  (x2 x4 x6 x8 : (⟨S128x128, .f32⟩ : BufTy).Contents (Elt Ideal)) (x3 x5 x7 x9 : (⟨S128, .f32⟩ : BufTy).Contents (Elt Ideal))

/-! Index equations: the compositions of index maps that the reference's layout operations read through are the
    constructors of the whole-array functions (the row of an index, its column, and their pairs with a
    contraction index). -/

private theorem lidx_v11 (i : S100000x128.Idx) (k : Fin 128) : lidx_main_v11 i k = ValueIdx.ix2 (GCN.rowOf i) k :=
  funext fun a => Fin.ext (by match a with | ⟨0, _⟩ => rfl | ⟨1, _⟩ => rfl)
private theorem ridx_v11 (i : S100000x128.Idx) (k : Fin 128) : ridx_main_v11 i k = ValueIdx.ix2 k (GCN.colOf i) :=
  funext fun a => Fin.ext (by match a with | ⟨0, _⟩ => rfl | ⟨1, _⟩ => rfl)
private theorem lidx_v49 (i : S100000x128.Idx) (k : Fin 128) : lidx_main_v49 i k = ValueIdx.ix2 (GCN.rowOf i) k :=
  funext fun a => Fin.ext (by match a with | ⟨0, _⟩ => rfl | ⟨1, _⟩ => rfl)
private theorem ridx_v49 (i : S100000x128.Idx) (k : Fin 128) : ridx_main_v49 i k = ValueIdx.ix2 k (GCN.colOf i) :=
  funext fun a => Fin.ext (by match a with | ⟨0, _⟩ => rfl | ⟨1, _⟩ => rfl)
private theorem lidx_v86 (i : S100000x128.Idx) (k : Fin 128) : lidx_main_v86 i k = ValueIdx.ix2 (GCN.rowOf i) k :=
  funext fun a => Fin.ext (by match a with | ⟨0, _⟩ => rfl | ⟨1, _⟩ => rfl)
private theorem ridx_v86 (i : S100000x128.Idx) (k : Fin 128) : ridx_main_v86 i k = ValueIdx.ix2 k (GCN.colOf i) :=
  funext fun a => Fin.ext (by match a with | ⟨0, _⟩ => rfl | ⟨1, _⟩ => rfl)
private theorem lidx_v91 (i : S100000x128.Idx) (k : Fin 128) : lidx_main_v91 i k = ValueIdx.ix2 (GCN.rowOf i) k :=
  funext fun a => Fin.ext (by match a with | ⟨0, _⟩ => rfl | ⟨1, _⟩ => rfl)
private theorem ridx_v91 (i : S100000x128.Idx) (k : Fin 128) : ridx_main_v91 i k = ValueIdx.ix2 k (GCN.colOf i) :=
  funext fun a => Fin.ext (by match a with | ⟨0, _⟩ => rfl | ⟨1, _⟩ => rfl)
private theorem idx_v41_v42 (i : S100000x128.Idx) : idx_main_v41 (idx_main_v42 i) = ValueIdx.ix1 (GCN.rowOf i) :=
  funext fun a => Fin.ext (by match a with | ⟨0, _⟩ => rfl)
private theorem idx_v45_v46 (i : S100000x128.Idx) : idx_main_v45 (idx_main_v46 i) = ValueIdx.ix1 (GCN.colOf i) :=
  funext fun a => Fin.ext (by match a with | ⟨0, _⟩ => rfl)
private theorem idx_v79_v80 (i : S100000x128.Idx) : idx_main_v79 (idx_main_v80 i) = ValueIdx.ix1 (GCN.rowOf i) :=
  funext fun a => Fin.ext (by match a with | ⟨0, _⟩ => rfl)
private theorem idx_v83_v84 (i : S100000x128.Idx) : idx_main_v83 (idx_main_v84 i) = ValueIdx.ix1 (GCN.colOf i) :=
  funext fun a => Fin.ext (by match a with | ⟨0, _⟩ => rfl)
private theorem idx_v87_v88 (i : S100000x128.Idx) : idx_main_v87 (idx_main_v88 i) = ValueIdx.ix1 (GCN.colOf i) :=
  funext fun a => Fin.ext (by match a with | ⟨0, _⟩ => rfl)
private theorem idx_v92_v93 (i : S100000x128.Idx) : idx_main_v92 (idx_main_v93 i) = ValueIdx.ix1 (GCN.colOf i) :=
  funext fun a => Fin.ext (by match a with | ⟨0, _⟩ => rfl)

/-- The reference's first product is the matrix product of the features with the first weights. -/
theorem stage_v11 : val_main_v11 (F := Ideal) x0 x2 = GCN.mm x0 x2 := by
  funext i
  rw [val_main_v11_apply]
  unfold GCN.mm
  refine Finset.sum_congr rfl fun k _ => ?_
  rw [lidx_v11, ridx_v11]

/-- The reference's first layer, after its clamp: messages, self-loop term and bias over the first product. -/
theorem stage_v48 : val_main_v48 (F := Ideal) x0 x1 x2 x3
    = GCN.relu (GCN.combine (val_main_v39 (F := Ideal) x0 x1 x2) (val_main_v11 (F := Ideal) x0 x2)
        (GCN.col (val_main_v40 (F := Ideal) x1)) (GCN.row x3)) := by
  funext i
  -- read at (r, q):  max ((agg[r,q] + d2[r] * xw[r,q]) + b[q], 0)
  rw [val_main_v48_apply, val_main_v47_apply, val_main_v44_apply, val_main_v43_apply, val_main_v42_apply,
    val_main_v41_apply, val_main_v46_apply, val_main_v45_apply, val_main_call0_v0_apply, val_main_call0_cst_apply,
    idx_v41_v42, idx_v45_v46]
  simp only [Ideal.addf_def, Ideal.mulf_def, Ideal.maximumf_def, Ideal.ofBits_def, Ideal.ofBits_zero_f32]
  rfl

/-- The reference's second product. -/
theorem stage_v49 : val_main_v49 (F := Ideal) x0 x1 x2 x3 x4 = GCN.mm (val_main_v48 (F := Ideal) x0 x1 x2 x3) x4 := by
  funext i
  rw [val_main_v49_apply]
  unfold GCN.mm
  refine Finset.sum_congr rfl fun k _ => ?_
  rw [lidx_v49, ridx_v49]

/-- The reference's second layer (no clamp): its first result. -/
theorem stage_v85 : val_main_v85 (F := Ideal) x0 x1 x2 x3 x4 x5
    = GCN.combine (val_main_v77 (F := Ideal) x0 x1 x2 x3 x4) (val_main_v49 (F := Ideal) x0 x1 x2 x3 x4)
        (GCN.col (val_main_v78 (F := Ideal) x1)) (GCN.row x5) := by
  funext i
  -- read at (r, q):  (agg[r,q] + d2[r] * xw[r,q]) + b[q]
  rw [val_main_v85_apply, val_main_v82_apply, val_main_v81_apply, val_main_v80_apply, val_main_v79_apply,
    val_main_v84_apply, val_main_v83_apply, idx_v79_v80, idx_v83_v84]
  simp only [Ideal.addf_def, Ideal.mulf_def]
  rfl

/-- The reference's first output head: its second result. -/
theorem stage_v90 : val_main_v90 (F := Ideal) x0 x1 x2 x3 x4 x5 x6 x7
    = GCN.head (val_main_v85 (F := Ideal) x0 x1 x2 x3 x4 x5) x6 (GCN.row x7) := by
  funext i
  -- read at (r, q):  max (Σₖ h[r,k] * w[k,q] + b[q], 0)
  rw [val_main_v90_apply, val_main_v89_apply, val_main_v86_apply, val_main_v88_apply, val_main_v87_apply,
    val_main_call1_v0_apply, val_main_call1_cst_apply, idx_v87_v88]
  simp only [Ideal.addf_def, Ideal.maximumf_def, Ideal.ofBits_def, Ideal.ofBits_zero_f32, lidx_v86, ridx_v86]
  rfl

/-- The reference's second output head: its third result. -/
theorem stage_v95 : val_main_v95 (F := Ideal) x0 x1 x2 x3 x4 x5 x8 x9
    = GCN.head (val_main_v85 (F := Ideal) x0 x1 x2 x3 x4 x5) x8 (GCN.row x9) := by
  funext i
  -- read at (r, q):  max (Σₖ h[r,k] * w[k,q] + b[q], 0)
  rw [val_main_v95_apply, val_main_v94_apply, val_main_v91_apply, val_main_v93_apply, val_main_v92_apply,
    val_main_call2_v0_apply, val_main_call2_cst_apply, idx_v92_v93]
  simp only [Ideal.addf_def, Ideal.maximumf_def, Ideal.ofBits_def, Ideal.ofBits_zero_f32, lidx_v91, ridx_v91]
  rfl

end Cert.ReferenceIdeal.Stages

end
-- ==== Proof.ChainA.lean ====
/-
  The kernel's program up to the end of its first region, read in the reference's stage functions: the source and target index vectors, the degree normalisation, and the first product.
-/
import proofs.«113579_j86242943303861_1_alg».proof.Proof.Gen.KernelIdeal.Frame
import proofs.«113579_j86242943303861_1_alg».proof.Proof.Gen.ReferenceIdeal.Read
import proofs.«113579_j86242943303861_1_alg».proof.Proof.Region0
import proofs.«113579_j86242943303861_1_alg».proof.Proof.RefStages
import Idealize.ShloMosaic.Lib.StableHlo.Run

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

/-- A buffer that none of a host stretch's operations writes keeps its contents through the stretch. -/
local macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- After the first host stretch the source indices are the reference's. -/
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- After the first host stretch the target indices are the reference's. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- After the first host stretch the normalisation 1/sqrt(deg) is the reference's. -/
theorem W1_v10 (c : Dev nD) : W1 m ρ c (Proc.devRef .tc main_v10) = val_main_v10 (F := Ideal) (m ((c : Thread nD τ).loc main_arg1)) := by
  show StableHlo.after hostOps0 (W0 m ρ c) (Proc.devRef .tc main_v10) = _
  after_results_simp
  rfl

/-- The first host stretch leaves the features as launched. -/
theorem W1_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  host_keep hostOps0

/-- The first host stretch leaves the first weights as launched. -/
theorem W1_arg2 (c : Dev nD) : W1 m ρ c (Proc.devRef .tc main_arg2) = (m ((c : Thread nD τ).loc main_arg2)) := by
  show StableHlo.after hostOps0 (W0 m ρ c) (Proc.devRef .tc main_arg2) = W0 m ρ c (Proc.devRef .tc main_arg2)
  host_keep hostOps0

/-- Region 0 leaves the reference's first product. -/
theorem W2_v11 (c : Dev nD) : W2 m ρ c (Proc.devRef .tc main_v11) = val_main_v11 (F := Ideal) (m ((c : Thread nD τ).loc main_arg0)) (m ((c : Thread nD τ).loc main_arg2)) := by
  refine (W2_arr m ρ c 2).trans ?_
  rw [Tiles.region0_array (V1 m ρ) c,
    show V1 m ρ c main_arg0 = W1 m ρ c (Proc.devRef .tc main_arg0) from rfl,
    show V1 m ρ c main_arg2 = W1 m ρ c (Proc.devRef .tc main_arg2) from rfl, W1_arg0, W1_arg2]
  exact (Cert.ReferenceIdeal.Stages.stage_v11 _ _).symm

/-- Region 0 keeps the source indices. -/
theorem W2_v1 (c : Dev nD) : W2 m ρ c (Proc.devRef .tc main_v1) = val_main_v1 (F := Ideal) (m ((c : Thread nD τ).loc main_arg1)) := by
  rw [W2_of_ne m ρ c main_v1 (by decide)]
  exact W1_v1 m ρ c

/-- Region 0 keeps the target indices. -/
theorem W2_v3 (c : Dev nD) : W2 m ρ c (Proc.devRef .tc main_v3) = val_main_v3 (F := Ideal) (m ((c : Thread nD τ).loc main_arg1)) := by
  rw [W2_of_ne m ρ c main_v3 (by decide)]
  exact W1_v3 m ρ c

/-- Region 0 keeps the normalisation. -/
theorem W2_v10 (c : Dev nD) : W2 m ρ c (Proc.devRef .tc main_v10) = val_main_v10 (F := Ideal) (m ((c : Thread nD τ).loc main_arg1)) := by
  rw [W2_of_ne m ρ c main_v10 (by decide)]
  exact W1_v10 m ρ c

/-- Up to region 0's exit the first bias is as launched. -/
theorem W2_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = W0 m ρ c (Proc.devRef .tc main_arg3)
  host_keep hostOps0

end Cert.KernelIdeal.Chain

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.Region1.lean ====
import proofs.«113579_j86242943303861_1_alg».proof.Proof.Gen.KernelIdeal.Frame
import proofs.«113579_j86242943303861_1_alg».proof.Proof.Spec
import proofs.«113579_j86242943303861_1_alg».proof.Proof.LibKeepdims
import Idealize.ShloMosaic.Lib.Pipeline.Value
import Idealize.ShloMosaic.Lib.ValueLayout
import Idealize.ShloMosaic.PureOps.Ideal.Laws

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-block rectangle, as a constant function. -/
private theorem offset_zero1 : (![0, 0] : Fin 2 → Nat) = fun _ => 0 := funext fun a => by fin_cases a <;> rfl

/-- One tile of the layer's end, read at row p and column q: the messages plus the self-loop weight of row p times
    the product, plus the bias of column q, clamped below at zero. -/
private theorem tile1_apply (v0 : Vec Ideal S5000x128 .f32) (v2 : Vec Ideal S5000x1 .f32) (v4 : Vec Ideal S5000x128 .f32)
    (v9 : Vec Ideal S1x128 .f32) (p : Fin 5000) (q : Fin 128) :
    k1_pay1 (F := Ideal) v0 v2 v4 v9 (ix2 p q)
      = max ((v0 (ix2 p q) + v2 (ix2 p (0 : Fin 1)) * v4 (ix2 p q)) + v9 (ix2 (0 : Fin 1) q)) 0 := by
  unfold k1_pay1
  simp only [shapeCast_self]
  simp only [maximumf, addf, mulf, broadcast, Ideal.maximumf_def, Ideal.addf_def, Ideal.mulf_def]
  rw [KeepdimsLayout.broadcastTo_a1_ab_apply v2 broadcasts_S5000x1_S5000x128 p q,
    broadcastTo_1b_ab_apply v9 broadcasts_S1x128_S5000x128 p q]
  show max _ (Ideal.ofBits .f32 0x00000000#32) = _
  rw [Ideal.ofBits_zero_f32]

/-- The block index maps over the twenty grid points: the three row-tiled inputs move with the output down the rows,
    the bias row is one block, and every block starts at column zero. -/
private theorem tile1_index : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 20 :=
  (by decide +kernel : ∀ t : Fin grid1.N, _)

/-- Every one of the twenty row tiles is some grid point's output block. -/
private theorem tile1_onto : ∀ b : Fin 20, ∃ t : Fin cfg1.N, win1_4.index t (0 : Fin 2) = b.val :=
  (by decide +kernel : ∀ b : Fin 20, ∃ t : Fin grid1.N, win1_4.index t (0 : Fin 2) = b.val)

/-- What grid point t writes back is tile t of the whole-array function. -/
private theorem tile1_flushed (c : Dev nD) (t : Fin cfg1.N) :
    (dat1 (F := Ideal) V c).flushed 4 t
      = ((cfg1.win 4).blk t).view.read (Elt Ideal)
          (GCN.relu (GCN.combine (V c main_v39) (V c main_v11) (V c main_v42) (V c main_v41))) := by
  show (cfg1.win 4).cut (grid1.coords t) ((dat1 (F := Ideal) V c).after 4 t) = _
  rw [after1_4]
  unfold out1_4
  rw [View.canon_unit_zero offset_zero1]
  simp only [View.ld_unit_zero (S := S5000x128) offset_zero1, View.ld_unit_zero (S := S5000x1) offset_zero1,
    View.ld_unit_zero (S := S1x128) offset_zero1]
  obtain ⟨e00, e01, e10, e11, e20, e21, e30, e31, e41, e4lt⟩ := tile1_index t
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 1 t) (iblk1 V c 3 t) (ix2 p q)
      = GCN.relu (GCN.combine (V c main_v39) (V c main_v11) (V c main_v42) (V c main_v41))
          (((cfg1.win 4).blk t).view.emb (ix2 p q))
  refine (tile1_apply _ _ _ _ p q).trans ?_
  have hp : p.val < 5000 := p.isLt
  have hq : q.val < 128 := q.isLt
  -- the global row of inner row p of tile t
  have hrow : win1_4.index t (0 : Fin 2) * 5000 + p.val < 100000 := by omega
  have hout : ((cfg1.win 4).blk t).view.emb (ix2 p q)
      = (ix2 (⟨win1_4.index t (0 : Fin 2) * 5000 + p.val, hrow⟩ : Fin 100000) q : GCN.Feat.Idx) := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  have h0 : iblk1 (F := Ideal) V c 0 t (ix2 p q)
      = V c main_v39 (ix2 (⟨win1_4.index t (0 : Fin 2) * 5000 + p.val, hrow⟩ : Fin 100000) q : GCN.Feat.Idx) := by
    show V c main_v39 (((cfg1.win 0).blk t).view.emb (ix2 p q)) = _
    refine congrArg (V c main_v39) ?_
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 128 + 1 * q.val = q.val; omega
  have h1 : iblk1 (F := Ideal) V c 1 t (ix2 p q)
      = V c main_v11 (ix2 (⟨win1_4.index t (0 : Fin 2) * 5000 + p.val, hrow⟩ : Fin 100000) q : GCN.Feat.Idx) := by
    show V c main_v11 (((cfg1.win 1).blk t).view.emb (ix2 p q)) = _
    refine congrArg (V c main_v11) ?_
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  have h2 : iblk1 (F := Ideal) V c 2 t (ix2 p (0 : Fin 1))
      = V c main_v42 (ix2 (⟨win1_4.index t (0 : Fin 2) * 5000 + p.val, hrow⟩ : Fin 100000) (0 : Fin 1) : GCN.Col.Idx) := by
    show V c main_v42 (((cfg1.win 2).blk t).view.emb (ix2 p (0 : Fin 1))) = _
    refine congrArg (V c main_v42) ?_
    funext a; apply Fin.ext
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  have h3 : iblk1 (F := Ideal) V c 3 t (ix2 (0 : Fin 1) q)
      = V c main_v41 (ix2 (0 : Fin 1) q : GCN.Row.Idx) := by
    show V c main_v41 (((cfg1.win 3).blk t).view.emb (ix2 (0 : Fin 1) q)) = _
    refine congrArg (V c main_v41) ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  rw [hout, GCN.relu_apply, GCN.combine_apply, h0, h1, h2, h3]

/-- An index of the array lies in grid point t's output block exactly when each of its coordinates lies in the
    block's range on that axis. -/
private theorem tile1_mem (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- The twenty tiles cover the array: row r lies in tile r / 5000, and every tile spans all 128 columns. -/
private theorem tile1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := tile1_onto ⟨(i 0).val / 5000, by omega⟩
  have ht0 : win1_4.index t (0 : Fin 2) = (i 0).val / 5000 := ht
  obtain ⟨-, -, -, -, -, -, -, -, e41, -⟩ := tile1_index t
  refine ⟨t, flush1_4 t, ?_⟩
  rw [tile1_mem]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After its twenty row tiles, region 1's output array is the first layer's messages plus self-loop term plus bias, clamped below at zero. -/
theorem region1_array (c : Dev nD) :
    (dat1 (F := Ideal) V c).arrAt 4 cfg1.N = GCN.relu (GCN.combine (V c main_v39) (V c main_v11) (V c main_v42) (V c main_v41)) :=
  (dat1 (F := Ideal) V c).arrAt_eq_of_cover 4 _ (fun t _ => tile1_flushed V c t) tile1_cover

end Cert.KernelIdeal.Tiles

end
-- ==== Proof.Region2.lean ====
/-
  Region 2: the second matrix product, tile by tile.

  The region runs the matrix-product kernel at twenty grid points; point t stages rows 5000 t to 5000 t + 4999 of the
  first layer's output and the whole second weight matrix, multiplies, and writes the 5000 x 128 result back to the same
  rows of the output array. Entry (p, q) of a tile's product is the sum over k of layer output (5000 t + p, k) times
  weight (k, q): the whole product's entry at row 5000 t + p. The tiles cover the array, so the array ends as the whole
  product.
-/
import proofs.«113579_j86242943303861_1_alg».proof.Proof.Gen.KernelIdeal.Frame
import proofs.«113579_j86242943303861_1_alg».proof.Proof.Spec
import proofs.«113579_j86242943303861_1_alg».proof.Proof.LibMatmul2
import proofs.«113579_j86242943303861_1_alg».proof.Proof.LibDotAxes
import Idealize.ShloMosaic.Lib.Pipeline.Value
import Idealize.ShloMosaic.PureOps.Ideal.Laws

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero, however spelt. -/
private theorem zero_offsets2 : (![0, 0] : Fin 2 → Nat) = fun _ => 0 := funext fun a => by fin_cases a <;> rfl

/-- The tile's payload at (p, q): a recast to the same shape is the identity, at the extended reals a change of float
    format is the identity, and the matrix product into the zero accumulator is the sum over k of x0[p, k] * x1[k, q]. -/
private theorem tile_product2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.LibMatmul2.matmul_zero_apply dot_S5000x128_S128x128_S5000x128_1_0_0_1_n_n
    (Cert.LibDotAxes.contr_rank _ rfl) (Cert.LibDotAxes.contr_size _ rfl _)
    (Cert.LibDotAxes.lhs_row _ rfl rfl) (fun i k => Cert.LibDotAxes.lhs_col _ rfl i k _)
    (fun i k => Cert.LibDotAxes.rhs_row _ rfl i k _) (Cert.LibDotAxes.rhs_col _ rfl rfl rfl rfl)
    (truncf .bf16 x0 bitsLt_bf16_f32) (truncf .bf16 x1 bitsLt_bf16_f32) p q

/-- The printed index maps over the twenty grid points: the layer-output window and the result window sit at block
    (t, 0), the weight window at block (0, 0). -/
private theorem tile_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A row tile of the product: if x0 is rows [5000 n, 5000 n + 5000) of A and x1 is B, the tile's payload at (p, q) is
    the whole product at (5000 n + p, q): the same sum over k. -/
private theorem row_tile2_eq (A : GCN.Feat.Idx → EReal) (B : GCN.Wt.Idx → EReal) (x0 : Vec Ideal S5000x128 .f32) (x1 : Vec Ideal S128x128 .f32)
    (n : Nat) (hn : n < 20)
    (h0 : ∀ (p : Fin 5000) (k : Fin 128), x0 (ix2 p k) = A (ix2 (⟨n * 5000 + p.val, by have := p.isLt; omega⟩ : Fin 100000) k))
    (h1 : ∀ (k q : Fin 128), x1 (ix2 k q) = B (ix2 k q)) (p : Fin 5000) (q : Fin 128) :
    k2_pay1 (F := Ideal) x0 x1 (ix2 p q) = GCN.mm A B (ix2 (⟨n * 5000 + p.val, by have := p.isLt; omega⟩ : Fin 100000) q) := by
  rw [tile_product2_apply, GCN.mm_apply]
  exact Finset.sum_congr rfl fun k _ => by rw [h0, h1]

/-- What grid point t writes back is block t (rows 5000 t to 5000 t + 4999) of the whole product of the arrays the
    region finds: a block's coordinate is its block index times the block size plus the coordinate inside. -/
private theorem written_back2_eq (c : Dev nD) (t : Fin cfg2.N) :
    (dat2 (F := Ideal) V c).flushed 2 t = ((cfg2.win 2).blk t).view.read (Elt Ideal) (GCN.mm (V c main_v43) (V c main_arg4)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨e00, e01, e10, e11, e20, e21⟩ := tile_indices2 t
  have ht : t.val < 20 := t.isLt
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
      = GCN.mm (V c main_v43) (V c main_arg4) (((cfg2.win 2).blk t).view.emb (ix2 p q))
  have hemb : ((cfg2.win 2).blk t).view.emb (ix2 p q) = ix2 (⟨t.val * 5000 + p.val, by have := p.isLt; omega⟩ : Fin 100000) q := by
    funext a; apply Fin.ext
    match a with
    | ⟨0, _⟩ => show win2_2.index t (0 : Fin 2) * 5000 + 1 * p.val = t.val * 5000 + p.val; rw [e20]; omega
    | ⟨1, _⟩ => show win2_2.index t (1 : Fin 2) * 128 + 1 * q.val = q.val; rw [e21]; omega
  rw [hemb]
  refine row_tile2_eq (V c main_v43) (V c main_arg4) (iblk2 V c 0 t) (iblk2 V c 1 t) t.val ht ?_ ?_ p q
  · intro p k
    show V c main_v43 (((cfg2.win 0).blk t).view.emb (ix2 p k)) = _
    refine congrArg (V c main_v43) ?_
    funext a; apply Fin.ext
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · intro k q
    show V c main_arg4 (((cfg2.win 1).blk t).view.emb (ix2 k q)) = _
    refine congrArg (V c main_arg4) ?_
    funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega

/-- An index of the output array lies in point t's block iff each coordinate lies in the block's range. -/
private theorem mem_tile2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- The twenty blocks cover the output array: row r lies in block r / 5000. -/
private theorem tiles_cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 5000, by show (i 0).val / 5000 < 20; omega⟩, flush2_2 _, ?_⟩
  rw [mem_tile2]
  obtain ⟨-, -, -, -, e20, e21⟩ := tile_indices2 ⟨(i 0).val / 5000, by show (i 0).val / 5000 < 20; omega⟩
  intro a
  match a with
  | ⟨0, _⟩ => show win2_2.index _ (0 : Fin 2) * 5000 ≤ (i 0).val ∧ (i 0).val < win2_2.index _ (0 : Fin 2) * 5000 + 5000; rw [e20]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e21]; omega

/-- After its twenty row tiles, region 2's output array is the product of the first layer's output with the second weight matrix. -/
theorem region2_array (c : Dev nD) :
    (dat2 (F := Ideal) V c).arrAt 2 cfg2.N = GCN.mm (V c main_v43) (V c main_arg4) :=
  (dat2 (F := Ideal) V c).arrAt_eq_of_cover 2 _ (fun t _ => written_back2_eq V c t) tiles_cover2

end Cert.KernelIdeal.Tiles

end
-- ==== Proof.Layout.lean ====
/-
  A per-node vector recast as a column, and a per-feature vector recast as a row, read entry by entry.

  A recast keeps the row-major position. Position r of a length-100000 vector is position r * 1 + 0 of a
  [100000, 1] column, so the column holds entry r at (r, 0); position q of a length-128 vector is position
  0 * 128 + q of a [1, 128] row, so the row holds entry q at (0, q).
-/
import proofs.«113579_j86242943303861_1_alg».proof.Proof.Spec
import proofs.«113579_j86242943303861_1_alg».proof.Proof.LibKeepdims
import Idealize.ShloMosaic.Lib.ValueLayout
import Idealize.ShloMosaic.Lib.Pipeline.Value

noncomputable section

namespace GCN

open Idealize.ShloMosaic Idealize.ShloMosaic.ValueIdx

/-- Every index of a column is the pair of its row and its (only) column. -/
theorem col_eq_ix2 (i : Col.Idx) : i = ix2 (⟨(i 0).val, (i 0).isLt⟩ : Fin 100000) (⟨(i 1).val, (i 1).isLt⟩ : Fin 1) :=
  funext fun a => Fin.ext (by
    match a with
    | ⟨0, _⟩ => rfl
    | ⟨1, _⟩ => rfl)

/-- Recasting a length-100000 vector as a [100000, 1] column puts entry r at (r, 0). -/
theorem shapeCast_col (y : NodeVec.Idx → EReal) (h : NodeVec.ShapeCasts Col) : shapeCast Col y h = col y := by
  funext i
  rw [col_eq_ix2 i, KeepdimsLayout.shapeCast_a_a1_apply y h _ _]
  rfl

/-- Recasting a length-128 vector as a [1, 128] row puts entry q at (0, q). -/
theorem shapeCast_row (b : FeatVec.Idx → EReal) (h : FeatVec.ShapeCasts Row) : shapeCast Row b h = row b := by
  funext j
  have h0 : (j 0).val = 0 := by
    have hlt : (j 0).val < 1 := (j 0).isLt
    omega
  exact shapeCast_apply b h j (ix1 ⟨(j 1).val, (j 1).isLt⟩) (by
    rw [Shape.rowMajor_val_one, Shape.rowMajor_val_two]
    show (j 1).val = (j 0).val * 128 + (j 1).val
    rw [h0]; omega)

end GCN

end
-- ==== Proof.ChainB.lean ====
/-
  The first layer: the second host stretch (gather, scale, scatter-add; the self-loop weights and the bias laid out), region 1 (combine and clamp) and region 2 (the second product).
-/
import proofs.«113579_j86242943303861_1_alg».proof.Proof.ChainA
import proofs.«113579_j86242943303861_1_alg».proof.Proof.Region1
import proofs.«113579_j86242943303861_1_alg».proof.Proof.Region2
import proofs.«113579_j86242943303861_1_alg».proof.Proof.Layout
import Idealize.ShloMosaic.Lib.StableHlo.Run

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

/-- A buffer that none of a host stretch's operations writes keeps its contents through the stretch. -/
local macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The second host stretch aggregates the first layer's messages as the reference does. -/
theorem W3_v39 (c : Dev nD) : W3 m ρ c (Proc.devRef .tc main_v39) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v39) = _
  after_results_simp
  rw [W2_v1, W2_v3, W2_v10, W2_v11]
  rfl

/-- The second host stretch keeps the first product. -/
theorem W3_v11 (c : Dev nD) : W3 m ρ c (Proc.devRef .tc main_v11) = val_main_v11 (F := Ideal) (m ((c : Thread nD τ).loc main_arg0)) (m ((c : Thread nD τ).loc main_arg2)) := by
  have h3 : W3 m ρ c (Proc.devRef .tc main_v11) = W2 m ρ c (Proc.devRef .tc main_v11) := by
    show StableHlo.after hostOps1 (W2 m ρ c) (Proc.devRef .tc main_v11) = W2 m ρ c (Proc.devRef .tc main_v11)
    host_keep hostOps1
  rw [h3]
  exact W2_v11 m ρ c

/-- The self-loop weights dis*dis, laid out as a column. -/
theorem W3_v42 (c : Dev nD) : W3 m ρ c (Proc.devRef .tc main_v42) = GCN.col (val_main_v40 (F := Ideal) (m ((c : Thread nD τ).loc main_arg1))) := by
  show StableHlo.after hostOps1 (W2 m ρ c) (Proc.devRef .tc main_v42) = _
  after_results_simp
  rw [W2_v10]
  exact GCN.shapeCast_col _ _

/-- The first bias, laid out as a row. -/
theorem W3_v41 (c : Dev nD) : W3 m ρ c (Proc.devRef .tc main_v41) = GCN.row (m ((c : Thread nD τ).loc main_arg3)) := by
  show StableHlo.after hostOps1 (W2 m ρ c) (Proc.devRef .tc main_v41) = _
  after_results_simp
  rw [W2_arg3]
  exact GCN.shapeCast_row _ _

/-- Region 1 leaves the reference's first layer output. -/
theorem W4_v43 (c : Dev nD) : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Tiles.region1_array (V3 m ρ) c,
    show V3 m ρ c main_v39 = W3 m ρ c (Proc.devRef .tc main_v39) from rfl,
    show V3 m ρ c main_v11 = W3 m ρ c (Proc.devRef .tc main_v11) from rfl,
    show V3 m ρ c main_v42 = W3 m ρ c (Proc.devRef .tc main_v42) from rfl,
    show V3 m ρ c main_v41 = W3 m ρ c (Proc.devRef .tc main_v41) from rfl,
    W3_v39, W3_v11, W3_v42, W3_v41]
  exact (Cert.ReferenceIdeal.Stages.stage_v48 _ _ _ _).symm

/-- Up to region 1's exit the second weights are as launched. -/
theorem W4_arg4 (c : Dev nD) : W4 m ρ c (Proc.devRef .tc main_arg4) = (m ((c : Thread nD τ).loc main_arg4)) := by
  have h3 : W3 m ρ c (Proc.devRef .tc main_arg4) = W2 m ρ c (Proc.devRef .tc main_arg4) := by
    show StableHlo.after hostOps1 (W2 m ρ c) (Proc.devRef .tc main_arg4) = W2 m ρ c (Proc.devRef .tc main_arg4)
    host_keep hostOps1
  have h1 : W1 m ρ c (Proc.devRef .tc main_arg4) = W0 m ρ c (Proc.devRef .tc main_arg4) := by
    show StableHlo.after hostOps0 (W0 m ρ c) (Proc.devRef .tc main_arg4) = W0 m ρ c (Proc.devRef .tc main_arg4)
    host_keep hostOps0
  rw [W4_of_ne m ρ c main_arg4 (by decide), h3, W2_of_ne m ρ c main_arg4 (by decide), h1]

/-- Region 2 leaves the reference's second product. -/
theorem W5_v44 (c : Dev nD) : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Tiles.region2_array (V4 m ρ) c,
    show V4 m ρ c main_v43 = W4 m ρ c (Proc.devRef .tc main_v43) from rfl,
    show V4 m ρ c main_arg4 = W4 m ρ c (Proc.devRef .tc main_arg4) from rfl,
    W4_v43, W4_arg4]
  exact (Cert.ReferenceIdeal.Stages.stage_v49 _ _ _ _ _).symm

/-- Up to region 2's exit the source indices are kept. -/
theorem W5_v1 (c : Dev nD) : W5 m ρ c (Proc.devRef .tc main_v1) = val_main_v1 (F := Ideal) (m ((c : Thread nD τ).loc main_arg1)) := by
  have h3 : W3 m ρ c (Proc.devRef .tc main_v1) = W2 m ρ c (Proc.devRef .tc main_v1) := by
    show StableHlo.after hostOps1 (W2 m ρ c) (Proc.devRef .tc main_v1) = W2 m ρ c (Proc.devRef .tc main_v1)
    host_keep hostOps1
  rw [W5_of_ne m ρ c main_v1 (by decide), W4_of_ne m ρ c main_v1 (by decide), h3]
  exact W2_v1 m ρ c

/-- Up to region 2's exit the target indices are kept. -/
theorem W5_v3 (c : Dev nD) : W5 m ρ c (Proc.devRef .tc main_v3) = val_main_v3 (F := Ideal) (m ((c : Thread nD τ).loc main_arg1)) := by
  have h3 : W3 m ρ c (Proc.devRef .tc main_v3) = W2 m ρ c (Proc.devRef .tc main_v3) := by
    show StableHlo.after hostOps1 (W2 m ρ c) (Proc.devRef .tc main_v3) = W2 m ρ c (Proc.devRef .tc main_v3)
    host_keep hostOps1
  rw [W5_of_ne m ρ c main_v3 (by decide), W4_of_ne m ρ c main_v3 (by decide), h3]
  exact W2_v3 m ρ c

/-- Up to region 2's exit the normalisation is kept. -/
theorem W5_v10 (c : Dev nD) : W5 m ρ c (Proc.devRef .tc main_v10) = val_main_v10 (F := Ideal) (m ((c : Thread nD τ).loc main_arg1)) := by
  have h3 : W3 m ρ c (Proc.devRef .tc main_v10) = W2 m ρ c (Proc.devRef .tc main_v10) := by
    show StableHlo.after hostOps1 (W2 m ρ c) (Proc.devRef .tc main_v10) = W2 m ρ c (Proc.devRef .tc main_v10)
    host_keep hostOps1
  rw [W5_of_ne m ρ c main_v10 (by decide), W4_of_ne m ρ c main_v10 (by decide), h3]
  exact W2_v10 m ρ c

/-- Up to region 2's exit the second bias is as launched. -/
theorem W5_arg5 (c : Dev nD) : W5 m ρ c (Proc.devRef .tc main_arg5) = (m ((c : Thread nD τ).loc main_arg5)) := by
  have h3 : W3 m ρ c (Proc.devRef .tc main_arg5) = W2 m ρ c (Proc.devRef .tc main_arg5) := by
    show StableHlo.after hostOps1 (W2 m ρ c) (Proc.devRef .tc main_arg5) = W2 m ρ c (Proc.devRef .tc main_arg5)
    host_keep hostOps1
  have h1 : W1 m ρ c (Proc.devRef .tc main_arg5) = W0 m ρ c (Proc.devRef .tc main_arg5) := by
    show StableHlo.after hostOps0 (W0 m ρ c) (Proc.devRef .tc main_arg5) = W0 m ρ c (Proc.devRef .tc main_arg5)
    host_keep hostOps0
  rw [W5_of_ne m ρ c main_arg5 (by decide), W4_of_ne m ρ c main_arg5 (by decide), h3,
    W2_of_ne m ρ c main_arg5 (by decide), h1]

end Cert.KernelIdeal.Chain

end
-- ==== Proof.Region3.lean ====
/-
  Region 3: the end of a graph convolution, tile by tile.

  The region runs the combine kernel at twenty grid points; point t stages rows 5000 t to 5000 t + 4999 of the
  aggregated messages, of the product and of the self-loop weights (a column), and the bias row, and writes
  (agg + d2 * xw) + b back to the same rows of the output array. Entry (p, q) of a tile's result reads the messages and the
  product at (5000 t + p, q), the column at (5000 t + p, 0) and the row at (0, q): the whole layer's entry at row
  5000 t + p. The tiles cover the array, so the array ends as the whole layer.
-/
import proofs.«113579_j86242943303861_1_alg».proof.Proof.Gen.KernelIdeal.Frame
import proofs.«113579_j86242943303861_1_alg».proof.Proof.Spec
import proofs.«113579_j86242943303861_1_alg».proof.Proof.LibKeepdims
import Idealize.ShloMosaic.Lib.Pipeline.Value
import Idealize.ShloMosaic.Lib.ValueLayout
import Idealize.ShloMosaic.PureOps.Ideal.Laws

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem hz3 : (![0, 0] : Fin 2 → Nat) = fun _ => 0 := funext fun a => by fin_cases a <;> rfl

/-- The tile's payload at (p, q): the recasts to the same shape are the identity, the column is read at (p, 0) and the
    row at (0, q). (The payload takes the messages, the column, the product, the row, in that order.) -/
theorem pay3_apply (x0 x1 : Vec Ideal S5000x128 .f32) (x2 : Vec Ideal S5000x1 .f32) (x3 : Vec Ideal S1x128 .f32)
    (p : Fin 5000) (q : Fin 128) :
    k3_pay1 (F := Ideal) x0 x2 x1 x3 (ix2 p q)
      = (x0 (ix2 p q) + x2 (ix2 p (0 : Fin 1)) * x1 (ix2 p q)) + x3 (ix2 (0 : Fin 1) q) := by
  unfold k3_pay1
  simp only [shapeCast_self]
  show (x0 (ix2 p q) + broadcastTo S5000x128 x2 broadcasts_S5000x1_S5000x128 (ix2 p q) * x1 (ix2 p q))
      + broadcastTo S5000x128 x3 broadcasts_S1x128_S5000x128 (ix2 p q) = _
  rw [KeepdimsLayout.broadcastTo_a1_ab_apply x2 broadcasts_S5000x1_S5000x128 p q,
    broadcastTo_1b_ab_apply x3 broadcasts_S1x128_S5000x128 p q]

/-- The printed index maps over the twenty grid points: the two feature windows, the column and the output sit at block
    (t, 0), the bias row at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A row tile of the layer: if x0, x1, x2 are rows [5000 n, 5000 n + 5000) of the messages A, the product X and the
    column D, and x3 is the bias row B, the tile's payload at (p, q) is the whole layer at (5000 n + p, q). -/
theorem tile3_eq (A X : GCN.Feat.Idx → EReal) (D : GCN.Col.Idx → EReal) (B : GCN.Row.Idx → EReal)
    (x0 x1 : Vec Ideal S5000x128 .f32) (x2 : Vec Ideal S5000x1 .f32) (x3 : Vec Ideal S1x128 .f32)
    (n : Nat) (hn : n < 20)
    (h0 : ∀ (p : Fin 5000) (q : Fin 128), x0 (ix2 p q) = A (ix2 (⟨n * 5000 + p.val, by have := p.isLt; omega⟩ : Fin 100000) q))
    (h1 : ∀ (p : Fin 5000) (q : Fin 128), x1 (ix2 p q) = X (ix2 (⟨n * 5000 + p.val, by have := p.isLt; omega⟩ : Fin 100000) q))
    (h2 : ∀ (p : Fin 5000), x2 (ix2 p (0 : Fin 1)) = D (ix2 (⟨n * 5000 + p.val, by have := p.isLt; omega⟩ : Fin 100000) (0 : Fin 1)))
    (h3 : ∀ (q : Fin 128), x3 (ix2 (0 : Fin 1) q) = B (ix2 (0 : Fin 1) q)) (p : Fin 5000) (q : Fin 128) :
    k3_pay1 (F := Ideal) x0 x2 x1 x3 (ix2 p q)
      = GCN.combine A X D B (ix2 (⟨n * 5000 + p.val, by have := p.isLt; omega⟩ : Fin 100000) q) := by
  rw [pay3_apply, GCN.combine_apply, h0, h1, h2, h3]

/-- What grid point t writes back is block t (rows 5000 t to 5000 t + 4999) of the whole layer of the arrays the
    region finds: a block's coordinate is its block index times the block size plus the coordinate inside. -/
theorem flushed3_eq (c : Dev nD) (t : Fin cfg3.N) :
    (dat3 (F := Ideal) V c).flushed 4 t
      = ((cfg3.win 4).blk t).view.read (Elt Ideal) (GCN.combine (V c main_v72) (V c main_v44) (V c main_v75) (V c main_v74)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S1x128) hz3]
  obtain ⟨e00, e01, e10, e11, e20, e21, e30, e31, e40, e41⟩ := idx_facts3 t
  have ht : t.val < 20 := t.isLt
  funext j
  obtain ⟨p, q, rfl⟩ : ∃ (p : Fin 5000) (q : Fin 128), j = ix2 p q := ⟨j 0, j 1, eq_ix2 j⟩
  show k3_pay1 (F := Ideal) (iblk3 V c 0 t) (iblk3 V c 2 t) (iblk3 V c 1 t) (iblk3 V c 3 t) (ix2 p q)
      = GCN.combine (V c main_v72) (V c main_v44) (V c main_v75) (V c main_v74) (((cfg3.win 4).blk t).view.emb (ix2 p q))
  have hemb : ((cfg3.win 4).blk t).view.emb (ix2 p q) = ix2 (⟨t.val * 5000 + p.val, by have := p.isLt; omega⟩ : Fin 100000) q := by
    funext a; apply Fin.ext
    match a with
    | ⟨0, _⟩ => show win3_4.index t (0 : Fin 2) * 5000 + 1 * p.val = t.val * 5000 + p.val; rw [e40]; omega
    | ⟨1, _⟩ => show win3_4.index t (1 : Fin 2) * 128 + 1 * q.val = q.val; rw [e41]; omega
  rw [hemb]
  refine tile3_eq (V c main_v72) (V c main_v44) (V c main_v75) (V c main_v74)
    (iblk3 V c 0 t) (iblk3 V c 1 t) (iblk3 V c 2 t) (iblk3 V c 3 t) t.val ht ?_ ?_ ?_ ?_ p q
  · intro p q
    show V c main_v72 (((cfg3.win 0).blk t).view.emb (ix2 p q)) = _
    refine congrArg (V c main_v72) ?_
    funext a; apply Fin.ext
    match a with
    | ⟨0, _⟩ => show win3_0.index t (0 : Fin 2) * 5000 + 1 * p.val = t.val * 5000 + p.val; rw [e00]; omega
    | ⟨1, _⟩ => show win3_0.index t (1 : Fin 2) * 128 + 1 * q.val = q.val; rw [e01]; omega
  · intro p q
    show V c main_v44 (((cfg3.win 1).blk t).view.emb (ix2 p q)) = _
    refine congrArg (V c main_v44) ?_
    funext a; apply Fin.ext
    match a with
    | ⟨0, _⟩ => show win3_1.index t (0 : Fin 2) * 5000 + 1 * p.val = t.val * 5000 + p.val; rw [e10]; omega
    | ⟨1, _⟩ => show win3_1.index t (1 : Fin 2) * 128 + 1 * q.val = q.val; rw [e11]; omega
  · intro p
    show V c main_v75 (((cfg3.win 2).blk t).view.emb (ix2 p (0 : Fin 1))) = _
    refine congrArg (V c main_v75) ?_
    funext a; apply Fin.ext
    match a with
    | ⟨0, _⟩ => show win3_2.index t (0 : Fin 2) * 5000 + 1 * p.val = t.val * 5000 + p.val; rw [e20]; omega
    | ⟨1, _⟩ => show win3_2.index t (1 : Fin 2) * 1 + 1 * 0 = 0; rw [e21]
  · intro q
    show V c main_v74 (((cfg3.win 3).blk t).view.emb (ix2 (0 : Fin 1) q)) = _
    refine congrArg (V c main_v74) ?_
    funext a; apply Fin.ext
    match a with
    | ⟨0, _⟩ => show win3_3.index t (0 : Fin 2) * 1 + 1 * 0 = 0; rw [e30]
    | ⟨1, _⟩ => show win3_3.index t (1 : Fin 2) * 128 + 1 * q.val = q.val; rw [e31]; omega

/-- An index of the output array lies in point t's block iff each coordinate lies in the block's range. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v76).slice (win3_4.rect t)).set ↔ _
  rw [View.set_slice_whole, Rect.mem_set_unit]
  exact Iff.rfl

/-- The twenty blocks cover the output array: row r lies in block r / 5000. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  refine ⟨⟨(i 0).val / 5000, by show (i 0).val / 5000 < 20; omega⟩, flush3_4 _, ?_⟩
  rw [mem_blk3]
  obtain ⟨-, -, -, -, -, -, -, -, e40, e41⟩ := idx_facts3 ⟨(i 0).val / 5000, by show (i 0).val / 5000 < 20; omega⟩
  intro a
  match a with
  | ⟨0, _⟩ => show win3_4.index _ (0 : Fin 2) * 5000 ≤ (i 0).val ∧ (i 0).val < win3_4.index _ (0 : Fin 2) * 5000 + 5000; rw [e40]; show (i 0).val / 5000 * 5000 ≤ (i 0).val ∧ (i 0).val < (i 0).val / 5000 * 5000 + 5000; omega
  | ⟨1, _⟩ => show win3_4.index _ (1 : Fin 2) * 128 ≤ (i 1).val ∧ (i 1).val < win3_4.index _ (1 : Fin 2) * 128 + 128; rw [e41]; omega

/-- After its twenty row tiles, region 3's output array is the whole layer of the arrays the region finds. -/
theorem region3_array (c : Dev nD) :
    (dat3 (F := Ideal) V c).arrAt 4 cfg3.N
      = GCN.combine (V c main_v72) (V c main_v44) (V c main_v75) (V c main_v74) :=
  (dat3 (F := Ideal) V c).arrAt_eq_of_cover 4 _ (fun t _ => flushed3_eq V c t) cover3

end Cert.KernelIdeal.Tiles

end
-- ==== Proof.ChainC.lean ====
/-
  The second layer: the third host stretch (the same gather, scale and scatter-add over the second product) and region 3 (combine, no clamp): the program's first result.
-/
import proofs.«113579_j86242943303861_1_alg».proof.Proof.ChainB
import proofs.«113579_j86242943303861_1_alg».proof.Proof.Region3
import Idealize.ShloMosaic.Lib.StableHlo.Run

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- A host stretch leaves a buffer it does not write as it found it: every operation's written buffer is another one. -/
local macro "host_keeps " h:ident : term => `(StableHlo.after_of_forall_not_mem _ _ (List.forall_iff_forall_mem.mp (by
    simp only [$h:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The third host stretch aggregates the second layer's messages as the reference does. -/
theorem W6_v72 (c : Dev nD) : W6 m ρ c (Proc.devRef .tc main_v72) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  -- the stretch's operations, read at the scatter's result, over the region-2 exit contents of its four operands
  show StableHlo.after hostOps3 (W5 m ρ c) (Proc.devRef .tc main_v72) = _
  after_results_simp
  rw [W5_v1, W5_v3, W5_v10, W5_v44]
  rfl

/-- The third host stretch keeps the second product. -/
theorem W6_v44 (c : Dev nD) : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (host_keeps hostOps3 : W6 m ρ c (Proc.devRef .tc main_v44) = W5 m ρ c (Proc.devRef .tc main_v44)).trans (W5_v44 m ρ c)

/-- The self-loop weights again, laid out as a column. -/
theorem W6_v75 (c : Dev nD) : W6 m ρ c (Proc.devRef .tc main_v75) = GCN.col (val_main_v78 (F := Ideal) (m ((c : Thread nD τ).loc main_arg1))) := by
  -- the product dis*dis recast from [100000] to [100000,1]
  show StableHlo.after hostOps3 (W5 m ρ c) (Proc.devRef .tc main_v75) = _
  after_results_simp
  rw [W5_v10]
  exact GCN.shapeCast_col (val_main_v78 (F := Ideal) (m ((c : Thread nD τ).loc main_arg1))) _

/-- The second bias, laid out as a row. -/
theorem W6_v74 (c : Dev nD) : W6 m ρ c (Proc.devRef .tc main_v74) = GCN.row (m ((c : Thread nD τ).loc main_arg5)) := by
  -- the bias recast from [128] to [1,128]
  show StableHlo.after hostOps3 (W5 m ρ c) (Proc.devRef .tc main_v74) = _
  after_results_simp
  rw [W5_arg5]
  exact GCN.shapeCast_row _ _

/-- Region 3 leaves the reference's second layer output: the first result. -/
theorem W7_v76 (c : Dev nD) : W7 m ρ c (Proc.devRef .tc main_v76) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the region's output array is the combine of its four entry values; each is the reference's, and the reference's stage is the same combine
  refine (W7_arr m ρ c 4).trans ?_
  rw [Cert.KernelIdeal.Tiles.region3_array (V6 m ρ) c]
  rw [show V6 m ρ c main_v72 = W6 m ρ c (Proc.devRef .tc main_v72) from rfl,
      show V6 m ρ c main_v44 = W6 m ρ c (Proc.devRef .tc main_v44) from rfl,
      show V6 m ρ c main_v75 = W6 m ρ c (Proc.devRef .tc main_v75) from rfl,
      show V6 m ρ c main_v74 = W6 m ρ c (Proc.devRef .tc main_v74) from rfl,
      W6_v72, W6_v44, W6_v75, W6_v74]
  exact (Cert.ReferenceIdeal.Stages.stage_v85 _ _ _ _ _ _).symm

/-- Up to region 3's exit the first head's weights are as launched. -/
theorem W7_arg6 (c : Dev nD) : W7 m ρ c (Proc.devRef .tc main_arg6) = (m ((c : Thread nD τ).loc main_arg6)) :=
  calc W7 m ρ c (Proc.devRef .tc main_arg6)
    _ = W6 m ρ c (Proc.devRef .tc main_arg6) := W7_of_ne m ρ c main_arg6 (by decide)
    _ = W5 m ρ c (Proc.devRef .tc main_arg6) := host_keeps hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := host_keeps hostOps1
    _ = W1 m ρ c (Proc.devRef .tc main_arg6) := W2_of_ne m ρ c main_arg6 (by decide)
    _ = W0 m ρ c (Proc.devRef .tc main_arg6) := host_keeps hostOps0
    _ = m ((c : Thread nD τ).loc main_arg6) := rfl

/-- Up to region 3's exit the first head's bias is as launched. -/
theorem W7_arg7 (c : Dev nD) : W7 m ρ c (Proc.devRef .tc main_arg7) = (m ((c : Thread nD τ).loc main_arg7)) :=
  calc W7 m ρ c (Proc.devRef .tc main_arg7)
    _ = W6 m ρ c (Proc.devRef .tc main_arg7) := W7_of_ne m ρ c main_arg7 (by decide)
    _ = W5 m ρ c (Proc.devRef .tc main_arg7) := host_keeps hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := host_keeps hostOps1
    _ = W1 m ρ c (Proc.devRef .tc main_arg7) := W2_of_ne m ρ c main_arg7 (by decide)
    _ = W0 m ρ c (Proc.devRef .tc main_arg7) := host_keeps hostOps0
    _ = m ((c : Thread nD τ).loc main_arg7) := rfl

/-- Up to region 3's exit the second head's weights are as launched. -/
theorem W7_arg8 (c : Dev nD) : W7 m ρ c (Proc.devRef .tc main_arg8) = (m ((c : Thread nD τ).loc main_arg8)) :=
  calc W7 m ρ c (Proc.devRef .tc main_arg8)
    _ = W6 m ρ c (Proc.devRef .tc main_arg8) := W7_of_ne m ρ c main_arg8 (by decide)
    _ = W5 m ρ c (Proc.devRef .tc main_arg8) := host_keeps hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := host_keeps hostOps1
    _ = W1 m ρ c (Proc.devRef .tc main_arg8) := W2_of_ne m ρ c main_arg8 (by decide)
    _ = W0 m ρ c (Proc.devRef .tc main_arg8) := host_keeps hostOps0
    _ = m ((c : Thread nD τ).loc main_arg8) := rfl

/-- Up to region 3's exit the second head's bias is as launched. -/
theorem W7_arg9 (c : Dev nD) : W7 m ρ c (Proc.devRef .tc main_arg9) = (m ((c : Thread nD τ).loc main_arg9)) :=
  calc W7 m ρ c (Proc.devRef .tc main_arg9)
    _ = W6 m ρ c (Proc.devRef .tc main_arg9) := W7_of_ne m ρ c main_arg9 (by decide)
    _ = W5 m ρ c (Proc.devRef .tc main_arg9) := host_keeps hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := host_keeps hostOps1
    _ = W1 m ρ c (Proc.devRef .tc main_arg9) := W2_of_ne m ρ c main_arg9 (by decide)
    _ = W0 m ρ c (Proc.devRef .tc main_arg9) := host_keeps hostOps0
    _ = m ((c : Thread nD τ).loc main_arg9) := rfl

end Cert.KernelIdeal.Chain

end
-- ==== Proof.Region4.lean ====
import proofs.«113579_j86242943303861_1_alg».proof.Proof.Gen.KernelIdeal.Frame
import proofs.«113579_j86242943303861_1_alg».proof.Proof.Spec
import proofs.«113579_j86242943303861_1_alg».proof.Proof.LibMatmul2
import proofs.«113579_j86242943303861_1_alg».proof.Proof.LibDotAxes
import Idealize.ShloMosaic.Lib.Pipeline.Value
import Idealize.ShloMosaic.Lib.ValueLayout
import Idealize.ShloMosaic.PureOps.Ideal.Laws

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The product's dimension record: the left operand's columns are contracted with the right operand's rows,
    and there is no batch axis. -/
private abbrev headDims4 := dot_S5000x128_S128x128_S5000x128_1_0_0_1_n_n

/-- The zero offsets of a whole-buffer load or store, as a constant function. -/
theorem zero_offsets4 : (![0, 0] : Fin 2 → Nat) = fun _ => 0 :=
  funext fun a => match a with
    | ⟨0, _⟩ => rfl
    | ⟨1, _⟩ => rfl

/-- One tile's result at (p, q): row p of the staged features times column q of the weights, plus the bias at q,
    clamped below at zero. A change of float format is the identity on extended reals, the product into the zero
    accumulator is the plain sum over the 128 contracted entries, and the bias row is read at (0, q) whatever p. -/
theorem head_tile4_apply (v0 : Vec Ideal S5000x128 .f32) (v3 : Vec Ideal S128x128 .f32) (v6 : Vec Ideal S1x128 .f32)
    (p : Fin 5000) (q : Fin 128) :
    k4_pay1 (F := Ideal) v0 v3 v6 (ix2 p q)
      = max ((∑ k : Fin 128, v0 (ix2 p k) * v3 (ix2 k q)) + v6 (ix2 (0 : Fin 1) q)) 0 := by
  unfold k4_pay1
  simp only [shapeCast_self]
  show max (matmul (F := Ideal) headDims4 none (truncf (F := Ideal) .bf16 v0 bitsLt_bf16_f32)
        (truncf (F := Ideal) .bf16 v3 bitsLt_bf16_f32) (constant (F := Ideal) S5000x128 .f32 0x00000000#32) (ix2 p q)
      + broadcastTo S5000x128 v6 broadcasts_S1x128_S5000x128 (ix2 p q)) (Ideal.ofBits .f32 0x00000000#32) = _
  rw [Cert.LibMatmul2.matmul_zero_apply headDims4 (Cert.LibDotAxes.contr_rank headDims4 rfl)
      (Cert.LibDotAxes.contr_size headDims4 rfl _)
      (Cert.LibDotAxes.lhs_row headDims4 rfl rfl) (fun i k => Cert.LibDotAxes.lhs_col headDims4 rfl i k _)
      (fun i k => Cert.LibDotAxes.rhs_row headDims4 rfl i k _) (Cert.LibDotAxes.rhs_col headDims4 rfl rfl rfl rfl),
    broadcastTo_1b_ab_apply, Ideal.ofBits_zero_f32]
  rfl

/-- The block indices over the twenty grid points: the feature tile moves down the rows with the output tile, the
    weight matrix and the bias row are the one block (0, 0) at every point, the output's row-block index is below 20
    and its column-block index is 0. -/
theorem tile4_index : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) < 20 ∧ win4_3.index t (1 : Fin 2) = 0 :=
  (by decide +kernel : ∀ t : Fin grid4.N, _)

/-- Every one of the twenty row blocks is some grid point's output block. -/
theorem tile4_onto : ∀ r : Fin 20, ∃ t : Fin cfg4.N, win4_3.index t (0 : Fin 2) = r.val :=
  (by decide +kernel : ∀ r : Fin 20, ∃ t : Fin grid4.N, win4_3.index t (0 : Fin 2) = r.val)

/-- The staged feature tile at (p, k) is the feature array at row  (row-block index) · 5000 + p, column k. -/
theorem feat_tile4_apply (c : Dev nD) (t : Fin cfg4.N) (p : Fin 5000) (k : Fin 128) (r : Fin 100000)
    (hr : r.val = win4_3.index t (0 : Fin 2) * 5000 + p.val) :
    (iblk4 (F := Ideal) V c 0 t : Vec Ideal S5000x128 .f32) (ix2 p k) = (V c main_v76 : GCN.Feat.Idx → EReal) (ix2 r k) := by
  obtain ⟨e0, e1, -⟩ := tile4_index t
  unfold iblk4
  rw [View.read_apply]
  show V c main_v76 _ = V c main_v76 _
  congr 1
  funext a
  apply Fin.ext
  match a with
  | ⟨0, _⟩ => show win4_0.index t (0 : Fin 2) * 5000 + 1 * p.val = r.val; omega
  | ⟨1, _⟩ => show win4_0.index t (1 : Fin 2) * 128 + 1 * k.val = k.val; omega

/-- The staged weight block is the whole weight matrix. -/
theorem weight_tile4_apply (c : Dev nD) (t : Fin cfg4.N) (k q : Fin 128) :
    (iblk4 (F := Ideal) V c 1 t : Vec Ideal S128x128 .f32) (ix2 k q) = (V c main_arg6 : GCN.Wt.Idx → EReal) (ix2 k q) := by
  obtain ⟨-, -, e2, e3, -⟩ := tile4_index t
  unfold iblk4
  rw [View.read_apply]
  show V c main_arg6 _ = V c main_arg6 _
  congr 1
  funext a
  apply Fin.ext
  match a with
  | ⟨0, _⟩ => show win4_1.index t (0 : Fin 2) * 128 + 1 * k.val = k.val; omega
  | ⟨1, _⟩ => show win4_1.index t (1 : Fin 2) * 128 + 1 * q.val = q.val; omega

/-- The staged bias block is the whole bias row. -/
theorem bias_tile4_apply (c : Dev nD) (t : Fin cfg4.N) (q : Fin 128) :
    (iblk4 (F := Ideal) V c 2 t : Vec Ideal S1x128 .f32) (ix2 (0 : Fin 1) q) = (V c main_v77 : GCN.Row.Idx → EReal) (ix2 (0 : Fin 1) q) := by
  obtain ⟨-, -, -, -, e4, e5, -⟩ := tile4_index t
  unfold iblk4
  rw [View.read_apply]
  show V c main_v77 _ = V c main_v77 _
  congr 1
  funext a
  apply Fin.ext
  match a with
  | ⟨0, _⟩ => show win4_2.index t (0 : Fin 2) * 1 + 1 * 0 = 0; omega
  | ⟨1, _⟩ => show win4_2.index t (1 : Fin 2) * 128 + 1 * q.val = q.val; omega

/-- What grid point t writes back is block t of the head of the entry arrays: entry (p, q) of the tile is the head at
    row  (row-block index) · 5000 + p, column q. -/
theorem flushed4_eq (c : Dev nD) (t : Fin cfg4.N) :
    (dat4 (F := Ideal) V c).flushed 3 t
      = ((cfg4.win 3).blk t).view.read (Elt Ideal) (GCN.head (V c main_v76) (V c main_arg6) (V c main_v77)) := by
  show (cfg4.win 3).cut (grid4.coords t) ((dat4 (F := Ideal) V c).after 3 t) = _
  rw [after4_3]
  unfold out4_3
  rw [View.canon_unit_zero zero_offsets4]
  simp only [View.ld_unit_zero (S := S5000x128) zero_offsets4, View.ld_unit_zero (S := S128x128) zero_offsets4,
    View.ld_unit_zero (S := S1x128) zero_offsets4]
  obtain ⟨-, -, -, -, -, -, e6, e7⟩ := tile4_index t
  refine funext fun (j : S5000x128.Idx) => ?_
  obtain ⟨p, q, rfl⟩ : ∃ (p : Fin 5000) (q : Fin 128), j = ix2 p q := ⟨j 0, j 1, eq_ix2 j⟩
  have hr : win4_3.index t (0 : Fin 2) * 5000 + p.val < 100000 := by
    have hp : p.val < 5000 := p.isLt
    omega
  have hemb : ((cfg4.win 3).blk t).view.emb (ix2 p q)
      = (ix2 (⟨win4_3.index t (0 : Fin 2) * 5000 + p.val, hr⟩ : Fin 100000) q : GCN.Feat.Idx) := by
    funext a
    apply Fin.ext
    match a with
    | ⟨0, _⟩ => show win4_3.index t (0 : Fin 2) * 5000 + 1 * p.val = win4_3.index t (0 : Fin 2) * 5000 + p.val; omega
    | ⟨1, _⟩ => show win4_3.index t (1 : Fin 2) * 128 + 1 * q.val = q.val; omega
  show k4_pay1 (F := Ideal) (iblk4 V c 0 t) (iblk4 V c 1 t) (iblk4 V c 2 t) (ix2 p q)
    = GCN.head (V c main_v76) (V c main_arg6) (V c main_v77) (((cfg4.win 3).blk t).view.emb (ix2 p q))
  rw [hemb, GCN.head_apply]
  refine (head_tile4_apply _ _ _ p q).trans ?_
  exact congrArg₂ max (congrArg₂ (· + ·)
    (Finset.sum_congr rfl fun k _ => congrArg₂ (· * ·) (feat_tile4_apply V c t p k _ rfl) (weight_tile4_apply V c t k q))
    (bias_tile4_apply V c t q)) rfl

/-- An index of the output array is in grid point t's block exactly when each coordinate is in the block's range. -/
theorem mem_tile4 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v78).slice (win4_3.rect t)).set ↔ _
  rw [View.set_slice_whole, Rect.mem_set_unit]
  exact Iff.rfl

/-- The twenty tiles cover the output array: row r lies in the block of the point whose row-block index is r / 5000. -/
theorem tiles4_cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := tile4_onto ⟨(i 0).val / 5000, by omega⟩
  have ht' : win4_3.index t (0 : Fin 2) = (i 0).val / 5000 := ht
  obtain ⟨-, -, -, -, -, -, -, e7⟩ := tile4_index t
  refine ⟨t, flush4_3 t, ?_⟩
  rw [mem_tile4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-- After its twenty row tiles, region 4's output array is the first output head of the second layer's output. -/
theorem region4_array (c : Dev nD) :
    (dat4 (F := Ideal) V c).arrAt 3 cfg4.N = GCN.head (V c main_v76) (V c main_arg6) (V c main_v77) :=
  (dat4 (F := Ideal) V c).arrAt_eq_of_cover 3 _ (fun t _ => flushed4_eq V c t) tiles4_cover

end Cert.KernelIdeal.Tiles

end
-- ==== Proof.Region5.lean ====
/-
  Region 5: an output head, tile by tile.

  The region runs the product-bias-clamp kernel at twenty grid points; point t stages rows 5000 t to 5000 t + 4999 of
  the second layer's output, the whole weight matrix and the bias row, and writes max (tile * weights + bias, 0) back to
  the same rows of the output array. Entry (p, q) of a tile's result is max (Σₖ h (5000 t + p, k) * w (k, q) + b (0, q), 0):
  the whole head's entry at row 5000 t + p. The tiles cover the array, so the array ends as the whole head.
-/
import proofs.«113579_j86242943303861_1_alg».proof.Proof.Gen.KernelIdeal.Frame
import proofs.«113579_j86242943303861_1_alg».proof.Proof.Spec
import proofs.«113579_j86242943303861_1_alg».proof.Proof.LibMatmul2
import proofs.«113579_j86242943303861_1_alg».proof.Proof.LibDotAxes
import Idealize.ShloMosaic.Lib.Pipeline.Value
import Idealize.ShloMosaic.Lib.ValueLayout
import Idealize.ShloMosaic.PureOps.Ideal.Laws

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem hz5 : (![0, 0] : Fin 2 → Nat) = fun _ => 0 := funext fun a => by fin_cases a <;> rfl

/-- The tile's payload at (p, q): the recasts to the same shape and the change of float format are the identity, the
    matrix product into the zero accumulator is the sum over k of x0[p, k] * x1[k, q], the bias row is read at (0, q),
    and the clamp's constant is zero. -/
theorem pay5_apply (x0 : Vec Ideal S5000x128 .f32) (x1 : Vec Ideal S128x128 .f32) (x2 : Vec Ideal S1x128 .f32)
    (p : Fin 5000) (q : Fin 128) :
    k5_pay1 (F := Ideal) x0 x1 x2 (ix2 p q)
      = max ((∑ k : Fin 128, x0 (ix2 p k) * x1 (ix2 k q)) + x2 (ix2 (0 : Fin 1) q)) 0 := by
  unfold k5_pay1
  simp only [shapeCast_self]
  show max (matmul (F := Ideal) dot_S5000x128_S128x128_S5000x128_1_0_0_1_n_n none (truncf .bf16 x0 bitsLt_bf16_f32)
        (truncf .bf16 x1 bitsLt_bf16_f32) (constant S5000x128 .f32 0x00000000#32) (ix2 p q)
      + broadcastTo S5000x128 x2 broadcasts_S1x128_S5000x128 (ix2 p q)) (Ideal.ofBits .f32 0x00000000#32) = _
  rw [Cert.LibMatmul2.matmul_zero_apply dot_S5000x128_S128x128_S5000x128_1_0_0_1_n_n
      (Cert.LibDotAxes.contr_rank _ rfl) (Cert.LibDotAxes.contr_size _ rfl _)
      (Cert.LibDotAxes.lhs_row _ rfl rfl) (fun i k => Cert.LibDotAxes.lhs_col _ rfl i k _)
      (fun i k => Cert.LibDotAxes.rhs_row _ rfl i k _) (Cert.LibDotAxes.rhs_col _ rfl rfl rfl rfl)
      (truncf .bf16 x0 bitsLt_bf16_f32) (truncf .bf16 x1 bitsLt_bf16_f32) p q,
    broadcastTo_1b_ab_apply x2 broadcasts_S1x128_S5000x128 p q, Ideal.ofBits_zero_f32]
  rfl

/-- The printed index maps over the twenty grid points: the feature window and the output window sit at block (t, 0),
    the weight window and the bias row at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A row tile of the head: if x0 is rows [5000 n, 5000 n + 5000) of H, x1 is W and x2 is the bias row B, the tile's
    payload at (p, q) is the whole head at (5000 n + p, q). -/
theorem tile5_eq (H : GCN.Feat.Idx → EReal) (W : GCN.Wt.Idx → EReal) (B : GCN.Row.Idx → EReal)
    (x0 : Vec Ideal S5000x128 .f32) (x1 : Vec Ideal S128x128 .f32) (x2 : Vec Ideal S1x128 .f32)
    (n : Nat) (hn : n < 20)
    (h0 : ∀ (p : Fin 5000) (k : Fin 128), x0 (ix2 p k) = H (ix2 (⟨n * 5000 + p.val, by have := p.isLt; omega⟩ : Fin 100000) k))
    (h1 : ∀ (k q : Fin 128), x1 (ix2 k q) = W (ix2 k q))
    (h2 : ∀ (q : Fin 128), x2 (ix2 (0 : Fin 1) q) = B (ix2 (0 : Fin 1) q)) (p : Fin 5000) (q : Fin 128) :
    k5_pay1 (F := Ideal) x0 x1 x2 (ix2 p q)
      = GCN.head H W B (ix2 (⟨n * 5000 + p.val, by have := p.isLt; omega⟩ : Fin 100000) q) := by
  rw [pay5_apply, GCN.head_apply, h2]
  refine congrArg (fun s => max (s + B (ix2 (0 : Fin 1) q)) 0) ?_
  exact Finset.sum_congr rfl fun k _ => by rw [h0, h1]

/-- What grid point t writes back is block t (rows 5000 t to 5000 t + 4999) of the whole head of the arrays the
    region finds: a block's coordinate is its block index times the block size plus the coordinate inside. -/
theorem flushed5_eq (c : Dev nD) (t : Fin cfg5.N) :
    (dat5 (F := Ideal) V c).flushed 3 t
      = ((cfg5.win 3).blk t).view.read (Elt Ideal) (GCN.head (V c main_v76) (V c main_arg8) (V c main_v79)) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S128x128) hz5, View.ld_unit_zero (S := S1x128) hz5]
  obtain ⟨e00, e01, e10, e11, e20, e21, e30, e31⟩ := idx_facts5 t
  have ht : t.val < 20 := t.isLt
  funext j
  obtain ⟨p, q, rfl⟩ : ∃ (p : Fin 5000) (q : Fin 128), j = ix2 p q := ⟨j 0, j 1, eq_ix2 j⟩
  show k5_pay1 (F := Ideal) (iblk5 V c 0 t) (iblk5 V c 1 t) (iblk5 V c 2 t) (ix2 p q)
      = GCN.head (V c main_v76) (V c main_arg8) (V c main_v79) (((cfg5.win 3).blk t).view.emb (ix2 p q))
  have hemb : ((cfg5.win 3).blk t).view.emb (ix2 p q) = ix2 (⟨t.val * 5000 + p.val, by have := p.isLt; omega⟩ : Fin 100000) q := by
    funext a; apply Fin.ext
    match a with
    | ⟨0, _⟩ => show win5_3.index t (0 : Fin 2) * 5000 + 1 * p.val = t.val * 5000 + p.val; rw [e30]; omega
    | ⟨1, _⟩ => show win5_3.index t (1 : Fin 2) * 128 + 1 * q.val = q.val; rw [e31]; omega
  rw [hemb]
  refine tile5_eq (V c main_v76) (V c main_arg8) (V c main_v79) (iblk5 V c 0 t) (iblk5 V c 1 t) (iblk5 V c 2 t) t.val ht ?_ ?_ ?_ p q
  · intro p k
    show V c main_v76 (((cfg5.win 0).blk t).view.emb (ix2 p k)) = _
    refine congrArg (V c main_v76) ?_
    funext a; apply Fin.ext
    match a with
    | ⟨0, _⟩ => show win5_0.index t (0 : Fin 2) * 5000 + 1 * p.val = t.val * 5000 + p.val; rw [e00]; omega
    | ⟨1, _⟩ => show win5_0.index t (1 : Fin 2) * 128 + 1 * k.val = k.val; rw [e01]; omega
  · intro k q
    show V c main_arg8 (((cfg5.win 1).blk t).view.emb (ix2 k q)) = _
    refine congrArg (V c main_arg8) ?_
    funext a; apply Fin.ext
    match a with
    | ⟨0, _⟩ => show win5_1.index t (0 : Fin 2) * 128 + 1 * k.val = k.val; rw [e10]; omega
    | ⟨1, _⟩ => show win5_1.index t (1 : Fin 2) * 128 + 1 * q.val = q.val; rw [e11]; omega
  · intro q
    show V c main_v79 (((cfg5.win 2).blk t).view.emb (ix2 (0 : Fin 1) q)) = _
    refine congrArg (V c main_v79) ?_
    funext a; apply Fin.ext
    match a with
    | ⟨0, _⟩ => show win5_2.index t (0 : Fin 2) * 1 + 1 * 0 = 0; rw [e20]
    | ⟨1, _⟩ => show win5_2.index t (1 : Fin 2) * 128 + 1 * q.val = q.val; rw [e21]; omega

/-- An index of the output array lies in point t's block iff each coordinate lies in the block's range. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v80).slice (win5_3.rect t)).set ↔ _
  rw [View.set_slice_whole, Rect.mem_set_unit]
  exact Iff.rfl

/-- The twenty blocks cover the output array: row r lies in block r / 5000. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  refine ⟨⟨(i 0).val / 5000, by show (i 0).val / 5000 < 20; omega⟩, flush5_3 _, ?_⟩
  rw [mem_blk5]
  obtain ⟨-, -, -, -, -, -, e30, e31⟩ := idx_facts5 ⟨(i 0).val / 5000, by show (i 0).val / 5000 < 20; omega⟩
  intro a
  match a with
  | ⟨0, _⟩ => show win5_3.index _ (0 : Fin 2) * 5000 ≤ (i 0).val ∧ (i 0).val < win5_3.index _ (0 : Fin 2) * 5000 + 5000; rw [e30]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e31]; omega

/-- After its twenty row tiles, region 5's output array is the output head of the arrays the region finds. -/
theorem region5_array (c : Dev nD) :
    (dat5 (F := Ideal) V c).arrAt 3 cfg5.N = GCN.head (V c main_v76) (V c main_arg8) (V c main_v79) :=
  (dat5 (F := Ideal) V c).arrAt_eq_of_cover 3 _ (fun t _ => flushed5_eq V c t) cover5

end Cert.KernelIdeal.Tiles

end
-- ==== Proof.ChainD.lean ====
/-
  The two output heads: each a one-operation host stretch (its bias laid out as a row) and a region (product, bias, clamp); and the three results at the last boundary.
-/
import proofs.«113579_j86242943303861_1_alg».proof.Proof.ChainC
import proofs.«113579_j86242943303861_1_alg».proof.Proof.Region4
import proofs.«113579_j86242943303861_1_alg».proof.Proof.Region5
import Idealize.ShloMosaic.Lib.StableHlo.Run

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- A host stretch leaves a buffer it does not write as it found it: every operation's written buffer is another one. -/
local macro "host_keeps " h:ident : term => `(StableHlo.after_of_forall_not_mem _ _ (List.forall_iff_forall_mem.mp (by
    simp only [$h:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The first head's bias, laid out as a row. -/
theorem W8_v77 (c : Dev nD) : W8 m ρ c (Proc.devRef .tc main_v77) = GCN.row (m ((c : Thread nD τ).loc main_arg7)) := by
  -- the bias recast from [128] to [1,128]
  show StableHlo.after hostOps4 (W7 m ρ c) (Proc.devRef .tc main_v77) = _
  after_results_simp
  rw [W7_arg7]
  exact GCN.shapeCast_row _ _

/-- The fourth host stretch keeps the second layer's output. -/
theorem W8_v76 (c : Dev nD) : W8 m ρ c (Proc.devRef .tc main_v76) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (host_keeps hostOps4 : W8 m ρ c (Proc.devRef .tc main_v76) = W7 m ρ c (Proc.devRef .tc main_v76)).trans (W7_v76 m ρ c)

/-- The fourth host stretch keeps the first head's weights. -/
theorem W8_arg6 (c : Dev nD) : W8 m ρ c (Proc.devRef .tc main_arg6) = (m ((c : Thread nD τ).loc main_arg6)) := by
  exact (host_keeps hostOps4 : W8 m ρ c (Proc.devRef .tc main_arg6) = W7 m ρ c (Proc.devRef .tc main_arg6)).trans (W7_arg6 m ρ c)

/-- Region 4 leaves the reference's first head: the second result. -/
theorem W9_v78 (c : Dev nD) : W9 m ρ c (Proc.devRef .tc main_v78) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the region's output array is the head of its three entry values; each is the reference's, and the reference's stage is the same head
  refine (W9_arr m ρ c 3).trans ?_
  rw [Cert.KernelIdeal.Tiles.region4_array (V8 m ρ) c]
  rw [show V8 m ρ c main_v76 = W8 m ρ c (Proc.devRef .tc main_v76) from rfl,
      show V8 m ρ c main_arg6 = W8 m ρ c (Proc.devRef .tc main_arg6) from rfl,
      show V8 m ρ c main_v77 = W8 m ρ c (Proc.devRef .tc main_v77) from rfl,
      W8_v76, W8_arg6, W8_v77]
  exact (Cert.ReferenceIdeal.Stages.stage_v90 _ _ _ _ _ _ _ _).symm

/-- Region 4 keeps the second layer's output. -/
theorem W9_v76 (c : Dev nD) : W9 m ρ c (Proc.devRef .tc main_v76) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the second layer's output is an input window of region 4: its array is unchanged
  exact ((W9_arr m ρ c 0).trans (((dat4 (V8 m ρ) c).arrAt_in 0 rfl _).trans (A_eq4 (V8 m ρ) c 0))).trans (W8_v76 m ρ c)

/-- Region 4 keeps the second head's weights. -/
theorem W9_arg8 (c : Dev nD) : W9 m ρ c (Proc.devRef .tc main_arg8) = (m ((c : Thread nD τ).loc main_arg8)) := by
  exact (W9_of_ne m ρ c main_arg8 (by decide)).trans ((host_keeps hostOps4 : W8 m ρ c (Proc.devRef .tc main_arg8) = W7 m ρ c (Proc.devRef .tc main_arg8)).trans (W7_arg8 m ρ c))

/-- Region 4 keeps the second head's bias. -/
theorem W9_arg9 (c : Dev nD) : W9 m ρ c (Proc.devRef .tc main_arg9) = (m ((c : Thread nD τ).loc main_arg9)) := by
  exact (W9_of_ne m ρ c main_arg9 (by decide)).trans ((host_keeps hostOps4 : W8 m ρ c (Proc.devRef .tc main_arg9) = W7 m ρ c (Proc.devRef .tc main_arg9)).trans (W7_arg9 m ρ c))

/-- The second head's bias, laid out as a row. -/
theorem W10_v79 (c : Dev nD) : W10 m ρ c (Proc.devRef .tc main_v79) = GCN.row (m ((c : Thread nD τ).loc main_arg9)) := by
  -- the bias recast from [128] to [1,128]
  show StableHlo.after hostOps5 (W9 m ρ c) (Proc.devRef .tc main_v79) = _
  after_results_simp
  rw [W9_arg9]
  exact GCN.shapeCast_row _ _

/-- The fifth host stretch keeps the second layer's output. -/
theorem W10_v76 (c : Dev nD) : W10 m ρ c (Proc.devRef .tc main_v76) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (host_keeps hostOps5 : W10 m ρ c (Proc.devRef .tc main_v76) = W9 m ρ c (Proc.devRef .tc main_v76)).trans (W9_v76 m ρ c)

/-- The fifth host stretch keeps the first head. -/
theorem W10_v78 (c : Dev nD) : W10 m ρ c (Proc.devRef .tc main_v78) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (host_keeps hostOps5 : W10 m ρ c (Proc.devRef .tc main_v78) = W9 m ρ c (Proc.devRef .tc main_v78)).trans (W9_v78 m ρ c)

/-- The fifth host stretch keeps the second head's weights. -/
theorem W10_arg8 (c : Dev nD) : W10 m ρ c (Proc.devRef .tc main_arg8) = (m ((c : Thread nD τ).loc main_arg8)) := by
  exact (host_keeps hostOps5 : W10 m ρ c (Proc.devRef .tc main_arg8) = W9 m ρ c (Proc.devRef .tc main_arg8)).trans (W9_arg8 m ρ c)

/-- Region 5 leaves the reference's second head: the third result. -/
theorem W11_v80 (c : Dev nD) : W11 m ρ c (Proc.devRef .tc main_v80) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  -- the region's output array is the head of its three entry values; each is the reference's, and the reference's stage is the same head
  refine (W11_arr m ρ c 3).trans ?_
  rw [Cert.KernelIdeal.Tiles.region5_array (V10 m ρ) c]
  rw [show V10 m ρ c main_v76 = W10 m ρ c (Proc.devRef .tc main_v76) from rfl,
      show V10 m ρ c main_arg8 = W10 m ρ c (Proc.devRef .tc main_arg8) from rfl,
      show V10 m ρ c main_v79 = W10 m ρ c (Proc.devRef .tc main_v79) from rfl,
      W10_v76, W10_arg8, W10_v79]
  exact (Cert.ReferenceIdeal.Stages.stage_v95 _ _ _ _ _ _ _ _).symm

/-- Region 5 keeps the first head: the second result. -/
theorem W11_v78 (c : Dev nD) : W11 m ρ c (Proc.devRef .tc main_v78) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W11_of_ne m ρ c main_v78 (by decide)).trans (W10_v78 m ρ c)

/-- Region 5 keeps the second layer's output: the first result. -/
theorem W11_v76 (c : Dev nD) : W11 m ρ c (Proc.devRef .tc main_v76) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the second layer's output is an input window of region 5: its array is unchanged
  exact ((W11_arr m ρ c 0).trans (((dat5 (V10 m ρ) c).arrAt_in 0 rfl _).trans (A_eq5 (V10 m ρ) c 0))).trans (W10_v76 m ρ c)

end Cert.KernelIdeal.Chain

end
-- ==== Proof.lean ====
/-
  Two graph-convolution layers and two output heads over 100000 nodes with 128 features, against the plain
  reference. With dis = 1/sqrt(1 + indegree), one layer maps features h to
      agg[r, q] + dis[r]^2 * (h W)[r, q] + b[q],   agg = the sum over the edges into r of (h W)[src] * dis[src] * dis[dst],
  the first layer is clamped below at zero, and each head is  max (h2 Wh + bh, 0)  of the second layer's output h2.

  The kernel's program computes the products, the self-loop-and-bias step and the heads in six tiled regions of twenty
  row tiles each; the gathers, the scaling and the scatter-adds between them are the same host operations as the
  reference's. So no algebra beyond reading is needed: a tile of a product is the same sum over k as the whole
  product at that row, a tile of the self-loop-and-bias step is the same three-term expression, and the tiles cover the
  array. The proof follows the program's segments: each region's output array is one whole-array function of the
  arrays the region finds (Region0 to Region5), each segment boundary holds the reference's stage at the matching
  buffer (ChainA to ChainD, over RefStages), and the two runs are set side by side.
-/
import proofs.«113579_j86242943303861_1_alg».proof.Defs
import proofs.«113579_j86242943303861_1_alg».proof.Proof.Gen.Kernel
import proofs.«113579_j86242943303861_1_alg».proof.Proof.Gen.Kernel.Frame
import proofs.«113579_j86242943303861_1_alg».proof.Proof.Gen.KernelIdeal
import proofs.«113579_j86242943303861_1_alg».proof.Proof.Gen.KernelIdeal.Frame
import proofs.«113579_j86242943303861_1_alg».proof.Proof.Gen.ReferenceIdeal
import proofs.«113579_j86242943303861_1_alg».proof.Proof.Gen.ReferenceIdeal.Run
import proofs.«113579_j86242943303861_1_alg».proof.Proof.Gen.ReferenceIdeal.Read
import proofs.«113579_j86242943303861_1_alg».proof.Proof.Gen.Pre_finite_inputs
import proofs.«113579_j86242943303861_1_alg».proof.Proof.KernelRun
import proofs.«113579_j86242943303861_1_alg».proof.Proof.ChainD
import Idealize.ShloMosaic.Adequacy
import Idealize.ShloMosaic.Init

noncomputable section

namespace Cert.Proof

open Idealize.ShloMosaic Idealize.SL.Sem

/-- The word-level program terminates without a fault and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the ten arguments both programs end with the same three arrays: the second
    layer's output and the two heads, each the reference's stage function of the arguments. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Named.run_named (F := Ideal) m ρ)
    obtain ⟨h0, h1, h2, hargs⟩ := h c
    exact ⟨h0.trans (Cert.KernelIdeal.Chain.W11_v76 m ρ c), h1.trans (Cert.KernelIdeal.Chain.W11_v78 m ρ c),
      h2.trans (Cert.KernelIdeal.Chain.W11_v80 m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9⟩ := hagree c
    refine ⟨?_, ?_, ?_, hargs⟩
    · rw [h0, Cert.ReferenceIdeal.Read.val_main_v85_eq, e0, e1, e2, e3, e4, e5]
    · rw [h1, Cert.ReferenceIdeal.Read.val_main_v90_eq, e0, e1, e2, e3, e4, e5, e6, e7]
    · rw [h2, Cert.ReferenceIdeal.Read.val_main_v95_eq, e0, e1, e2, e3, e4, e5, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
